-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x2x256 : Shape := ⟨3, ![65536, 2, 256]⟩
abbrev S256x256 : Shape := ⟨2, ![256, 256]⟩
abbrev S_ : Shape := ⟨0, ![]⟩

class Facts : Prop where
  bcast_S_S65536x2x256 : S_.BroadcastsInDim S65536x2x256 (![] : Fin 0 → Fin S65536x2x256.rank)
  reducesTo_S65536x2x256_S_d0_1_2 : S65536x2x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S65536x2x256 .f32) (main_arg1 : FVec F S256x256 .f32) (main_arg2 : FVec F S256x256 .f32) : IVec S_ 1 :=
  let main_v0 : FVec F S65536x2x256 .f32 := Host.absf main_arg0
  let main_cst : FVec F S_ .f32 := constant S_ .f32 0x7F800000#32
  let main_v1 : FVec F S65536x2x256 .f32 := broadcastInDim S65536x2x256 ![] bcast_S_S65536x2x256 main_cst
  let main_v2 : IVec S65536x2x256 1 := cmpf .olt main_v0 main_v1
  let main_c : IVec S_ 1 := constantI S_ 1 1#1
  let main_v3 : IVec S_ 1 := (fun x v => Host.reduce IntOp.andi x v reducesTo_S65536x2x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S65536x2x256 : Shape := ⟨3, ![65536, 2, 256]⟩
abbrev S256x256 : Shape := ⟨2, ![256, 256]⟩
abbrev S65536x512 : Shape := ⟨2, ![65536, 512]⟩
abbrev S2048x2x256 : Shape := ⟨3, ![2048, 2, 256]⟩
abbrev S2048x512 : Shape := ⟨2, ![2048, 512]⟩
abbrev S2048x1x256 : Shape := ⟨3, ![2048, 1, 256]⟩
abbrev S2048x256 : Shape := ⟨2, ![2048, 256]⟩
abbrev S65536x512x1 : Shape := ⟨3, ![65536, 512, 1]⟩

abbrev nBuf : Space → Nat
  | .hbm => 9
  | .vmem => 6
  | .smem => 0
  | _ => 0

abbrev bufTy : (tb : Table) → Fin (tcTables nBuf tb) → BufTy
  | .hbm, ⟨0, _⟩ => ⟨S65536x2x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .bf16⟩
  | .hbm, ⟨5, _⟩ => ⟨S256x256, .f32⟩
  | .hbm, ⟨6, _⟩ => ⟨S256x256, .bf16⟩
  | .hbm, ⟨7, _⟩ => ⟨S65536x512, .f32⟩
  | .hbm, ⟨8, _⟩ => ⟨S65536x512x1, .f32⟩
  | .local _ .vmem, ⟨0, _⟩ => ⟨S2048x2x256, .f32⟩
  | .local _ .vmem, ⟨1, _⟩ => ⟨S2048x2x256, .f32⟩
  | .local _ .vmem, ⟨2, _⟩ => ⟨S256x256, .bf16⟩
  | .local _ .vmem, ⟨3, _⟩ => ⟨S256x256, .bf16⟩
  | .local _ .vmem, ⟨4, _⟩ => ⟨S2048x512, .f32⟩
  | .local _ .vmem, ⟨5, _⟩ => ⟨S2048x512, .f32⟩
  | _, _ => ⟨S65536x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S256x256_S256x256_1_0 : S256x256.Transposes [1, 0] S256x256
  bitsLt_bf16_f32 : FTy.bits .bf16 < FTy.bits .f32
  inb_S2048x2x256_S2048x1x256_0_0_0 : ∀ a, (![0, 0, 0] : Fin 3 → Nat) a + S2048x1x256.size a ≤ S2048x2x256.size a
  h_S2048x1x256 : 0 < S2048x1x256.numel
  shapeCasts_S2048x1x256_S2048x256 : S2048x1x256.ShapeCasts S2048x256
  inb_S2048x2x256_S2048x1x256_0_1_0 : ∀ a, (![0, 1, 0] : Fin 3 → Nat) a + S2048x1x256.size a ≤ S2048x2x256.size a
  inb_S256x256_S256x256_0_0 : ∀ a, (![0, 0] : Fin 2 → Nat) a + S256x256.size a ≤ S256x256.size a
  h_S256x256 : 0 < S256x256.numel
  shapeCasts_S256x256_S256x256 : S256x256.ShapeCasts S256x256
  concatenates_S2048x256_S2048x256_S2048x512_d1 : Shape.Concatenates [S2048x256, S2048x256] S2048x512 1
  inb_S2048x512_S2048x512_0_0 : ∀ a, (![0, 0] : Fin 2 → Nat) a + S2048x512.size a ≤ S2048x512.size a
  h_S2048x512 : 0 < S2048x512.numel
  bcast_S65536x512_S65536x512x1_0_1 : S65536x512.BroadcastsInDim S65536x512x1 (![0, 1] : Fin 2 → Fin S65536x512x1.rank)
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2x256.size a ≤ S65536x2x256.size a
  hwx0_0 : ∀ i : grid0.Coords, EltTy.bits .f32 = 32 ∨ (Rect.block (s := S65536x2x256) S2048x2x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S65536x512.size a
  hwx0_3 : ∀ i : grid0.Coords, EltTy.bits .f32 = 32 ∨ (Rect.block (s := S65536x512) S2048x512.size (cc0_transform_3 i) (hinb0_3 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2048x2x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x2x256 : Shape := ⟨3, ![65536, 2, 256]⟩
abbrev S256x256 : Shape := ⟨2, ![256, 256]⟩
abbrev S65536x1x256 : Shape := ⟨3, ![65536, 1, 256]⟩
abbrev S65536x256 : Shape := ⟨2, ![65536, 256]⟩
abbrev S65536x512 : Shape := ⟨2, ![65536, 512]⟩
abbrev S65536x512x1 : Shape := ⟨3, ![65536, 512, 1]⟩

abbrev nBuf : Space → Nat
  | .hbm => 15
  | .vmem => 0
  | .smem => 0
  | _ => 0

abbrev bufTy : (tb : Table) → Fin (tcTables nBuf tb) → BufTy
  | .hbm, ⟨0, _⟩ => ⟨S65536x2x256, .f32⟩
  | .hbm, ⟨1, _⟩ => ⟨S256x256, .f32⟩
  | .hbm, ⟨2, _⟩ => ⟨S256x256, .f32⟩
  | .hbm, ⟨3, _⟩ => ⟨S65536x1x256, .f32⟩
  | .hbm, ⟨4, _⟩ => ⟨S65536x256, .f32⟩
  | .hbm, ⟨5, _⟩ => ⟨S65536x1x256, .f32⟩
  | .hbm, ⟨6, _⟩ => ⟨S65536x256, .f32⟩
  | .hbm, ⟨7, _⟩ => ⟨S65536x256, .f32⟩
  | .hbm, ⟨8, _⟩ => ⟨S65536x256, .f32⟩
  | .hbm, ⟨9, _⟩ => ⟨S65536x256, .f32⟩
  | .hbm, ⟨10, _⟩ => ⟨S65536x256, .f32⟩
  | .hbm, ⟨11, _⟩ => ⟨S65536x256, .f32⟩
  | .hbm, ⟨12, _⟩ => ⟨S65536x256, .f32⟩
  | .hbm, ⟨13, _⟩ => ⟨S65536x512, .f32⟩
  | .hbm, ⟨14, _⟩ => ⟨S65536x512x1, .f32⟩
  | _, _ => ⟨S65536x2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  slices_S65536x2x256_S65536x1x256_0_0_0 : S65536x2x256.Slices ![0, 0, 0] S65536x1x256
  shapeCasts_S65536x1x256_S65536x256 : S65536x1x256.ShapeCasts S65536x256
  slices_S65536x2x256_S65536x1x256_0_1_0 : S65536x2x256.Slices ![0, 1, 0] S65536x1x256
  concatenates_S65536x256_S65536x256_S65536x512_d1 : Shape.Concatenates [S65536x256, S65536x256] S65536x512 1
  bcast_S65536x512_S65536x512x1_0_1 : S65536x512.BroadcastsInDim S65536x512x1 (![0, 1] : Fin 2 → Fin S65536x512x1.rank)
  dot_S65536x256_S256x256_S65536x256_1_1_0_0_n_n_wf : DotDims.WF S65536x256 S256x256 S65536x256 [1] [1] [0] [0] [] []

variable [Facts₀]

def dot_S65536x256_S256x256_S65536x256_1_1_0_0_n_n : DotDims S65536x256 S256x256 S65536x256 where
  lhsContracting := [1]
  rhsContracting := [1]
  lhsNonContracting := [0]
  rhsNonContracting := [0]
  lhsBatch := []
  rhsBatch := []
  wf := dot_S65536x256_S256x256_S65536x256_1_1_0_0_n_n_wf

class Facts : Prop extends Facts₀ where

variable [Facts]
-- ==== Proof.Spectrum.lean ====
/-
  The transform both programs compute, written once as a function of the three argument arrays.

  Row `b` of the input `x : [65536, 2, 256]` carries two channels of length 256: `x[b,0,·]` (the real part of a
  signal) and `x[b,1,·]` (its imaginary part). Two `256 × 256` tables, `C` and `S`, are applied to each channel as a
  dense matrix–vector product, `corr x K b ch k = Σ_n x[b,ch,n] · K[k,n]`, and the four products are combined as a
  complex multiplication would combine them:

      re[b,k] = Σ_n x[b,0,n]·C[k,n] − Σ_n x[b,1,n]·S[k,n]
      im[b,k] = Σ_n x[b,1,n]·C[k,n] + Σ_n x[b,0,n]·S[k,n]

  Output row `b` is `re[b,·]` followed by `im[b,·]` (512 columns), and the result carries a trailing axis of extent
  one. Every value is an extended real; nothing below needs the inputs to be finite, since no law beyond the
  definitions of `+`, `−`, `·` and of a finite sum is used.
-/
import Idealize.ShloMosaic.Lib.ValueIdx
import Idealize.ShloMosaic.PureOps.Ideal

noncomputable section

namespace Cert.Dft

open Idealize.ShloMosaic Idealize.ShloMosaic.ValueIdx

/-- The input's shape, a table's, the output's before and after the trailing unit axis is added. -/
abbrev SIn : Shape := ⟨3, ![65536, 2, 256]⟩
abbrev STab : Shape := ⟨2, ![256, 256]⟩
abbrev SOut2 : Shape := ⟨2, ![65536, 512]⟩
abbrev SOut3 : Shape := ⟨3, ![65536, 512, 1]⟩

/-- Channel `ch` of row `b` against row `k` of a table: `Σ_n x[b,ch,n] · K[k,n]`. -/
def corr (X : SIn.Idx → EReal) (K : STab.Idx → EReal) (b : Fin 65536) (ch : Fin 2) (k : Fin 256) : EReal :=
  ∑ n : Fin 256, X (ix3 b ch n) * K (ix2 k n)

/-- The real part at frequency `k`: the real channel against `C` less the imaginary channel against `S`. -/
def rePart (X : SIn.Idx → EReal) (C S : STab.Idx → EReal) (b : Fin 65536) (k : Fin 256) : EReal :=
  corr X C b 0 k - corr X S b 1 k

/-- The imaginary part at frequency `k`: the imaginary channel against `C` plus the real channel against `S`. -/
def imPart (X : SIn.Idx → EReal) (C S : STab.Idx → EReal) (b : Fin 65536) (k : Fin 256) : EReal :=
  corr X C b 1 k + corr X S b 0 k

/-- Output row `b`: columns `0 … 255` are the real parts, columns `256 … 511` the imaginary parts. -/
def spectrum (X : SIn.Idx → EReal) (C S : STab.Idx → EReal) : SOut2.Idx → EReal := fun i =>
  if h : (i 1).val < 256 then rePart X C S (i 0) ⟨(i 1).val, h⟩
  else imPart X C S (i 0) ⟨(i 1).val - 256, by have h1 : (i 1).val < 512 := (i 1).isLt; omega⟩

/-- The same with the trailing unit axis. -/
def spectrum3 (X : SIn.Idx → EReal) (C S : STab.Idx → EReal) : SOut3.Idx → EReal := fun i =>
  spectrum X C S (ix2 (i 0) (i 1))

theorem spectrum_re (X : SIn.Idx → EReal) (C S : STab.Idx → EReal) (b : Fin 65536) (j : Fin 512) (k : Fin 256)
    (hk : j.val = k.val) : spectrum X C S (ix2 b j) = rePart X C S b k := by
  have h : ((ix2 b j : SOut2.Idx) 1).val < 256 := by show j.val < 256; omega
  unfold spectrum
  rw [dif_pos h]
  exact congrArg (rePart X C S b) (Fin.ext hk)

theorem spectrum_im (X : SIn.Idx → EReal) (C S : STab.Idx → EReal) (b : Fin 65536) (j : Fin 512) (k : Fin 256)
    (hk : j.val = k.val + 256) : spectrum X C S (ix2 b j) = imPart X C S b k := by
  have h : ¬ ((ix2 b j : SOut2.Idx) 1).val < 256 := by show ¬ j.val < 256; omega
  unfold spectrum
  rw [dif_neg h]
  exact congrArg (imPart X C S b) (Fin.ext (by show j.val - 256 = k.val; omega))

end Cert.Dft

end
-- ==== Proof.ReferenceSpectrum.lean ====
/-
  The reference program computes the transform of Spectrum.lean.

  Its stages, read at an index: the two slices of `x` along the channel axis followed by the reshape that drops that
  axis give channel `ch` of row `b` at `x[b,ch,n]` (row-major positions: `(b·256 + n) / 256 = b` and
  `(b·256 + n) % 256 = n`); each of the four contractions pairs axis 1 of a channel with axis 1 of a table, so its
  element `(b,k)` is `Σ_n x[b,ch,n] · K[k,n]`; the subtraction and the addition are pointwise; the join along axis 1
  puts the difference in columns `0 … 255` and the sum in columns `256 … 511`; the last stage adds the unit axis.
-/
import proofs.«175483_j31258771980926_1_alg».proof.Proof.Gen.ReferenceIdeal.Read
import proofs.«175483_j31258771980926_1_alg».proof.Proof.Spectrum

noncomputable section

namespace Cert.ReferenceIdeal.RefValue

open Cert.ReferenceIdeal Cert.ReferenceIdeal.Gen Cert.ReferenceIdeal.Read
open Idealize.ShloMosaic Idealize.ShloMosaic.ValueIdx Cert.Dft

variable (x0 : (⟨S65536x2x256, .f32⟩ : BufTy).Contents (Elt Ideal))
variable (x1 x2 : (⟨S256x256, .f32⟩ : BufTy).Contents (Elt Ideal))

/-- The real channel, sliced and reshaped, at `(b, n)` is `x[b,0,n]`. -/
theorem chan0 (b : Fin 65536) (n : Fin 256) : val_main_v1 (F := Ideal) x0 (ix2 b n) = x0 (ix3 b 0 n) := by
  rw [val_main_v1_apply, val_main_v0_apply]
  have hb : b.val < 65536 := b.isLt
  have hn : n.val < 256 := n.isLt
  refine congrArg x0 (funext fun a => Fin.ext ?_)
  match a with
  | ⟨0, _⟩ => show (b.val * 256 + n.val) / 256 = b.val; omega
  | ⟨1, _⟩ => rfl
  | ⟨2, _⟩ => show (b.val * 256 + n.val) % 256 = n.val; omega

/-- The imaginary channel, sliced and reshaped, at `(b, n)` is `x[b,1,n]`. -/
theorem chan1 (b : Fin 65536) (n : Fin 256) : val_main_v3 (F := Ideal) x0 (ix2 b n) = x0 (ix3 b 1 n) := by
  rw [val_main_v3_apply, val_main_v2_apply]
  have hb : b.val < 65536 := b.isLt
  have hn : n.val < 256 := n.isLt
  refine congrArg x0 (funext fun a => Fin.ext ?_)
  match a with
  | ⟨0, _⟩ => show (b.val * 256 + n.val) / 256 = b.val; omega
  | ⟨1, _⟩ => rfl
  | ⟨2, _⟩ => show (b.val * 256 + n.val) % 256 = n.val; omega

/-- The four contractions: each is one channel against one table. -/
theorem dot_re_cos (b : Fin 65536) (k : Fin 256) : val_main_v4 (F := Ideal) x0 x1 (ix2 b k) = corr x0 x1 b 0 k := by
  rw [val_main_v4_apply]
  unfold corr
  refine Finset.sum_congr rfl fun n _ => ?_
  have el : lidx_main_v4 (ix2 b k) n = ix2 b n := funext fun a => match a with | ⟨0, _⟩ => rfl | ⟨1, _⟩ => rfl
  have er : ridx_main_v4 (ix2 b k) n = ix2 k n := funext fun a => match a with | ⟨0, _⟩ => rfl | ⟨1, _⟩ => rfl
  rw [el, er, chan0]

theorem dot_im_sin (b : Fin 65536) (k : Fin 256) : val_main_v5 (F := Ideal) x0 x2 (ix2 b k) = corr x0 x2 b 1 k := by
  rw [val_main_v5_apply]
  unfold corr
  refine Finset.sum_congr rfl fun n _ => ?_
  have el : lidx_main_v5 (ix2 b k) n = ix2 b n := funext fun a => match a with | ⟨0, _⟩ => rfl | ⟨1, _⟩ => rfl
  have er : ridx_main_v5 (ix2 b k) n = ix2 k n := funext fun a => match a with | ⟨0, _⟩ => rfl | ⟨1, _⟩ => rfl
  rw [el, er, chan1]

theorem dot_im_cos (b : Fin 65536) (k : Fin 256) : val_main_v7 (F := Ideal) x0 x1 (ix2 b k) = corr x0 x1 b 1 k := by
  rw [val_main_v7_apply]
  unfold corr
  refine Finset.sum_congr rfl fun n _ => ?_
  have el : lidx_main_v7 (ix2 b k) n = ix2 b n := funext fun a => match a with | ⟨0, _⟩ => rfl | ⟨1, _⟩ => rfl
  have er : ridx_main_v7 (ix2 b k) n = ix2 k n := funext fun a => match a with | ⟨0, _⟩ => rfl | ⟨1, _⟩ => rfl
  rw [el, er, chan1]

theorem dot_re_sin (b : Fin 65536) (k : Fin 256) : val_main_v8 (F := Ideal) x0 x2 (ix2 b k) = corr x0 x2 b 0 k := by
  rw [val_main_v8_apply]
  unfold corr
  refine Finset.sum_congr rfl fun n _ => ?_
  have el : lidx_main_v8 (ix2 b k) n = ix2 b n := funext fun a => match a with | ⟨0, _⟩ => rfl | ⟨1, _⟩ => rfl
  have er : ridx_main_v8 (ix2 b k) n = ix2 k n := funext fun a => match a with | ⟨0, _⟩ => rfl | ⟨1, _⟩ => rfl
  rw [el, er, chan0]

/-- The difference and the sum, at `(b, k)`, are the real and the imaginary part. -/
theorem re_at (b : Fin 65536) (k : Fin 256) : val_main_v6 (F := Ideal) x0 x1 x2 (ix2 b k) = rePart x0 x1 x2 b k := by
  rw [val_main_v6_apply, dot_re_cos, dot_im_sin]; rfl

theorem im_at (b : Fin 65536) (k : Fin 256) : val_main_v9 (F := Ideal) x0 x1 x2 (ix2 b k) = imPart x0 x1 x2 b k := by
  rw [val_main_v9_apply, dot_im_cos, dot_re_sin]; rfl

/-- The reference's result is the transform. -/
theorem result_eq : val_main_v11 (F := Ideal) x0 x1 x2 = spectrum3 x0 x1 x2 := by
  funext i
  rw [val_main_v11_apply]
  have hidx : idx_main_v11 i = ix2 (i 0) (i 1) := funext fun a => match a with | ⟨0, _⟩ => rfl | ⟨1, _⟩ => rfl
  rw [hidx]
  unfold val_main_v10 spectrum3
  have h1 : (i 1).val < 512 := (i 1).isLt
  by_cases h : (i 1).val < 256
  · rw [spectrum_re _ _ _ (i 0) (i 1) ⟨(i 1).val, h⟩ rfl]
    refine (concatenate_pair_apply_left (t := S65536x512) (s₁ := S65536x256) (s₂ := S65536x256) (1 : Fin 2)
      (val_main_v6 (F := Ideal) x0 x1 x2) (val_main_v9 (F := Ideal) x0 x1 x2)
      concatenates_S65536x256_S65536x256_S65536x512_d1 (ix2 (i 0) (i 1)) rfl
      (ix2 (i 0) ⟨(i 1).val, h⟩) (fun b => ?_)).trans (re_at x0 x1 x2 (i 0) ⟨(i 1).val, h⟩)
    match b with
    | ⟨0, _⟩ => rfl
    | ⟨1, _⟩ => rfl
  · have hk : (i 1).val - 256 < 256 := by omega
    rw [spectrum_im _ _ _ (i 0) (i 1) ⟨(i 1).val - 256, hk⟩ (by show (i 1).val = (i 1).val - 256 + 256; omega)]
    refine (concatenate_pair_apply_right (t := S65536x512) (s₁ := S65536x256) (s₂ := S65536x256) (1 : Fin 2)
      (val_main_v6 (F := Ideal) x0 x1 x2) (val_main_v9 (F := Ideal) x0 x1 x2)
      concatenates_S65536x256_S65536x256_S65536x512_d1 (ix2 (i 0) (i 1)) rfl rfl
      (ix2 (i 0) ⟨(i 1).val - 256, hk⟩) (fun b hb => ?_) ?_).trans (im_at x0 x1 x2 (i 0) ⟨(i 1).val - 256, hk⟩)
    · match b with
      | ⟨0, _⟩ => rfl
      | ⟨1, _⟩ => exact absurd rfl hb
    · show (i 1).val - 256 + 256 = (i 1).val; omega

end Cert.ReferenceIdeal.RefValue

end
-- ==== Proof.KernelBlock.lean ====
/-
  What one grid step of the kernel stores, read at an index.

  A step holds a block of 2048 rows of the input, `xb : [2048, 2, 256]`, and the two tables TRANSPOSED,
  `ct, st : [256, 256]` with `ct[n,k] = C[k,n]`. It loads the two channels `xb[·,0,·]` and `xb[·,1,·]` (each a
  `[2048, 1, 256]` slab whose unit axis a shape cast drops; the row-major position of `(p, 0, n)` in the slab and
  of `(p, n)` in the matrix is `p·256 + n` in both), forms the four products `channel × table` into zero
  accumulators — a product contracting axis 1 of the left operand with axis 0 of the right, so its element `(p,q)`
  is `Σ_n a[p,n] · w[n,q]` —, subtracts one pair and adds the other, and joins the two `[2048, 256]` results along
  axis 1. Narrowing a float to another format is the identity on extended reals, and a shape cast to the same shape
  is the identity. So at column `j < 256` the stored block holds
      Σ_n xb[p,0,n]·ct[n,j] − Σ_n xb[p,1,n]·st[n,j]
  and at column `j = q + 256`
      Σ_n xb[p,1,n]·ct[n,q] + Σ_n xb[p,0,n]·st[n,q].
-/
import proofs.«175483_j31258771980926_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen
open Idealize.ShloMosaic Idealize.ShloMosaic.ValueIdx

/-! ## The product's operand indices, axis by axis -/

theorem lhs_axis0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs_axis1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs_axis0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs_axis1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-! ## The body's pieces -/

/-- A loaded channel slab as a matrix of narrowed values. -/
def chan (v : Vec Ideal S2048x1x256 .f32) : FVec Ideal S2048x256 .bf16 :=
  truncf .bf16 (shapeCast S2048x256 v shapeCasts_S2048x1x256_S2048x256) bitsLt_bf16_f32

/-- A loaded table, cast to its own shape. -/
def tab (v : Vec Ideal S256x256 .bf16) : FVec Ideal S256x256 .bf16 :=
  shapeCast S256x256 v shapeCasts_S256x256_S256x256

/-- A channel times a table, into a zero accumulator. -/
def prod (a : FVec Ideal S2048x256 .bf16) (w : FVec Ideal S256x256 .bf16) : FVec Ideal S2048x256 .f32 :=
  matmul (F := Ideal) dot_S2048x256_S256x256_S2048x256_1_0_0_1_n_n none a w (constant (F := Ideal) S2048x256 .f32 0x00000000#32)

/-- The stored value is the join of the difference and the sum of the four products. -/
theorem pay_eq (v0 v3 : Vec Ideal S2048x1x256 .f32) (v6 v8 : Vec Ideal S256x256 .bf16) :
    k0_pay1 (F := Ideal) v0 v3 v6 v8
      = concatenate S2048x512 1
          [⟨S2048x256, subf (prod (chan v0) (tab v6)) (prod (chan v3) (tab v8))⟩,
           ⟨S2048x256, addf (prod (chan v3) (tab v6)) (prod (chan v0) (tab v8))⟩]
          concatenates_S2048x256_S2048x256_S2048x512_d1 := rfl

theorem chan_apply (v : Vec Ideal S2048x1x256 .f32) (p : Fin 2048) (n : Fin 256) :
    chan v (ix2 p n) = v (ix3 p 0 n) := by
  show shapeCast S2048x256 v shapeCasts_S2048x1x256_S2048x256 (ix2 p n) = _
  refine shapeCast_apply v shapeCasts_S2048x1x256_S2048x256 (ix2 p n) (ix3 p 0 n) ?_
  rw [Shape.rowMajor_val_three, Shape.rowMajor_val_two]
  show (p.val * 1 + 0) * 256 + n.val = p.val * 256 + n.val
  omega

theorem tab_eq (v : Vec Ideal S256x256 .bf16) : tab v = v := shapeCast_self v _

theorem prod_apply (a : FVec Ideal S2048x256 .bf16) (w : FVec Ideal S256x256 .bf16) (p : Fin 2048) (q : Fin 256) :
    prod a w (ix2 p q) = ∑ n : Fin 256, a (ix2 p n) * w (ix2 n q) := by
  unfold prod
  show FloatOps.matmul dot_S2048x256_S256x256_S2048x256_1_0_0_1_n_n none a w (constant (F := Ideal) S2048x256 .f32 0x00000000#32) (ix2 p q) = _
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S2048x256_S256x256_S2048x256_1_0_0_1_n_n.rhsIdx (ix2 p q) ((contrEquiv1 dot_S2048x256_S256x256_S2048x256_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-! ## The stored block at an index -/

/-- Left half: the real part of row `p` at frequency `q`. -/
theorem pay_re (v0 v3 : Vec Ideal S2048x1x256 .f32) (v6 v8 : Vec Ideal S256x256 .bf16)
    (p : Fin 2048) (j : Fin 512) (q : Fin 256) (hq : j.val = q.val) :
    k0_pay1 (F := Ideal) v0 v3 v6 v8 (ix2 p j)
      = (∑ n : Fin 256, (v0 (ix3 p 0 n) : EReal) * (v6 (ix2 n q) : EReal))
        - ∑ n : Fin 256, (v3 (ix3 p 0 n) : EReal) * (v8 (ix2 n q) : EReal) := by
  rw [pay_eq]
  refine (concatenate_pair_apply_left (t := S2048x512) (s₁ := S2048x256) (s₂ := S2048x256) (1 : Fin 2)
    (subf (prod (chan v0) (tab v6)) (prod (chan v3) (tab v8))) (addf (prod (chan v3) (tab v6)) (prod (chan v0) (tab v8)))
    concatenates_S2048x256_S2048x256_S2048x512_d1 (ix2 p j) rfl (ix2 p q) (fun b => ?_)).trans ?_
  · match b with
    | ⟨0, _⟩ => rfl
    | ⟨1, _⟩ => exact hq.symm
  · show prod (chan v0) (tab v6) (ix2 p q) - prod (chan v3) (tab v8) (ix2 p q) = _
    rw [prod_apply, prod_apply, tab_eq, tab_eq]
    simp only [chan_apply]

/-- Right half: the imaginary part of row `p` at frequency `q`. -/
theorem pay_im (v0 v3 : Vec Ideal S2048x1x256 .f32) (v6 v8 : Vec Ideal S256x256 .bf16)
    (p : Fin 2048) (j : Fin 512) (q : Fin 256) (hq : j.val = q.val + 256) :
    k0_pay1 (F := Ideal) v0 v3 v6 v8 (ix2 p j)
      = (∑ n : Fin 256, (v3 (ix3 p 0 n) : EReal) * (v6 (ix2 n q) : EReal))
        + ∑ n : Fin 256, (v0 (ix3 p 0 n) : EReal) * (v8 (ix2 n q) : EReal) := by
  rw [pay_eq]
  refine (concatenate_pair_apply_right (t := S2048x512) (s₁ := S2048x256) (s₂ := S2048x256) (1 : Fin 2)
    (subf (prod (chan v0) (tab v6)) (prod (chan v3) (tab v8))) (addf (prod (chan v3) (tab v6)) (prod (chan v0) (tab v8)))
    concatenates_S2048x256_S2048x256_S2048x512_d1 (ix2 p j) rfl rfl (ix2 p q) (fun b hb => ?_) ?_).trans ?_
  · match b with
    | ⟨0, _⟩ => rfl
    | ⟨1, _⟩ => exact absurd rfl hb
  · show q.val + 256 = j.val
    omega
  · show prod (chan v3) (tab v6) (ix2 p q) + prod (chan v0) (tab v8) (ix2 p q) = _
    rw [prod_apply, prod_apply, tab_eq, tab_eq]
    simp only [chan_apply]

end Cert.KernelIdeal.BlockValue

end
-- ==== Proof.KernelArray.lean ====
/-
  From the kernel's blocks to its result array, and through the host line after the region.

  The grid has 32 points; point `t` reads rows `2048·t … 2048·t + 2047` of the input (all of both channels) and the
  two tables whole, and writes back rows `2048·t … 2048·t + 2047` of the `[65536, 512]` result. The tables the
  region reads are the host's transposes of the argument tables, narrowed (the identity on extended reals):
  `ct[n,k] = C[k,n]`, `st[n,k] = S[k,n]`. So what point `t` writes back is block `t` of the transform of
  Spectrum.lean (`flushed_eq`): the block's element `(p, j)` sits at array index `(2048·t + p, j)`, the input
  block's element `(p, ch, n)` at `(2048·t + p, ch, n)`, and the stored value there is the real or the imaginary
  part of row `2048·t + p` (KernelBlock.lean). Row `r` of the result is covered by point `r / 2048`, so the
  result array after the region is the transform (`final`). The one host line after the region adds a trailing unit
  axis to that array (`tail_eq`), and the program's run ends with its result at the transform of the arguments (`run`).
-/
import proofs.«175483_j31258771980926_1_alg».proof.Proof.Gen.KernelIdeal.Frame
import proofs.«175483_j31258771980926_1_alg».proof.Proof.KernelBlock
import proofs.«175483_j31258771980926_1_alg».proof.Proof.Spectrum
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen Cert.KernelIdeal.BlockValue Cert.Dft
open Idealize.ShloMosaic Idealize.ShloMosaic.TcCoe Idealize.ShloMosaic.ValueIdx Idealize.ShloMosaic.StableHlo
open Idealize.SL.Sem
open Idealize.ShloMosaic.Pipeline (Dat Cfg Window)

variable (m : (ℓ : Loc nD τ sig) → Buf (Elt Ideal) ℓ) (ρ : Dev nD → PrngReg)

theorem zero2 : (![0, 0] : Fin 2 → Nat) = fun _ => 0 := funext fun a => by fin_cases a <;> rfl

/-! ## Loads through the two channel rectangles -/

theorem ld_chan0 (xb : Vec Ideal S2048x2x256 .f32) (p : Fin 2048) (n : Fin 256) :
    View.ld xb r0_0 (ix3 p 0 n) = xb (ix3 p 0 n) := by
  show xb (r0_0.idx (ix3 p 0 n)) = _
  refine congrArg xb (funext fun a => Fin.ext ?_)
  match a with
  | ⟨0, _⟩ => show 0 + 1 * p.val = p.val; omega
  | ⟨1, _⟩ => rfl
  | ⟨2, _⟩ => show 0 + 1 * n.val = n.val; omega

theorem ld_chan1 (xb : Vec Ideal S2048x2x256 .f32) (p : Fin 2048) (n : Fin 256) :
    View.ld xb r0_1 (ix3 p 0 n) = xb (ix3 p 1 n) := by
  show xb (r0_1.idx (ix3 p 0 n)) = _
  refine congrArg xb (funext fun a => Fin.ext ?_)
  match a with
  | ⟨0, _⟩ => show 0 + 1 * p.val = p.val; omega
  | ⟨1, _⟩ => rfl
  | ⟨2, _⟩ => show 0 + 1 * n.val = n.val; omega

/-! ## One block is a block of the transform -/

/-- If the loaded input block holds rows of `X` (row `p` of the block being row `i 0` of `X` for the block row
    `p = y 0` in question), and the loaded tables are the transposes of `C` and `S`, then the value stored at block
    index `y` is the transform of `(X, C, S)` at the array index `i` with the same column. -/
theorem block_spectrum (xb : Vec Ideal S2048x2x256 .f32) (ct st : Vec Ideal S256x256 .bf16)
    (X : SIn.Idx → EReal) (C S : STab.Idx → EReal) (y : S2048x512.Idx) (i : SOut2.Idx)
    (hx : ∀ (ch : Fin 2) (n : Fin 256), xb (ix3 (y 0) ch n) = X (ix3 (i 0) ch n))
    (hc : ∀ n k : Fin 256, ct (ix2 n k) = C (ix2 k n)) (hs : ∀ n k : Fin 256, st (ix2 n k) = S (ix2 k n))
    (hcol : (i 1).val = (y 1).val) :
    k0_pay1 (F := Ideal) (View.ld xb r0_0) (View.ld xb r0_1) ct st y = spectrum X C S i := by
  obtain ⟨p, j, rfl⟩ : ∃ (p : Fin 2048) (j : Fin 512), y = ix2 p j := ⟨y 0, y 1, eq_ix2 y⟩
  obtain ⟨b, j', rfl⟩ : ∃ (b : Fin 65536) (j' : Fin 512), i = ix2 b j' := ⟨i 0, i 1, eq_ix2 i⟩
  have hj : j'.val = j.val := hcol
  have hx0 : ∀ n : Fin 256, xb (ix3 p 0 n) = X (ix3 b 0 n) := fun n => hx 0 n
  have hx1 : ∀ n : Fin 256, xb (ix3 p 1 n) = X (ix3 b 1 n) := fun n => hx 1 n
  have hj1 : j.val < 512 := j.isLt
  by_cases h : j.val < 256
  · rw [pay_re _ _ _ _ p j ⟨j.val, h⟩ rfl, spectrum_re X C S b j' ⟨j.val, h⟩ hj]
    unfold rePart corr
    refine congrArg₂ (· - ·) (Finset.sum_congr rfl fun n _ => ?_) (Finset.sum_congr rfl fun n _ => ?_)
    · rw [hc]; exact congrArg (· * C (ix2 ⟨j.val, h⟩ n)) ((ld_chan0 xb p n).trans (hx0 n))
    · rw [hs]; exact congrArg (· * S (ix2 ⟨j.val, h⟩ n)) ((ld_chan1 xb p n).trans (hx1 n))
  · have hk : j.val - 256 < 256 := by omega
    rw [pay_im _ _ _ _ p j ⟨j.val - 256, hk⟩ (by show j.val = j.val - 256 + 256; omega),
      spectrum_im X C S b j' ⟨j.val - 256, hk⟩ (by show j'.val = j.val - 256 + 256; omega)]
    unfold imPart corr
    refine congrArg₂ (· + ·) (Finset.sum_congr rfl fun n _ => ?_) (Finset.sum_congr rfl fun n _ => ?_)
    · rw [hc]; exact congrArg (· * C (ix2 ⟨j.val - 256, hk⟩ n)) ((ld_chan1 xb p n).trans (hx1 n))
    · rw [hs]; exact congrArg (· * S (ix2 ⟨j.val - 256, hk⟩ n)) ((ld_chan0 xb p n).trans (hx0 n))

/-! ## The tables as the region finds them -/

/-- The first table the region stages is the host's transpose of the argument `C`. -/
theorem cosT_apply (c : Dev nD) (n k : Fin 256) :
    V m c main_v1 (ix2 n k) = m ((c : Thread nD τ).loc main_arg1) (ix2 k n) := by
  have e : (V m c main_v1 : S256x256.Idx → EReal)
      = truncf (F := Ideal) .bf16 (transpose S256x256 [1, 0] (m ((c : Thread nD τ).loc main_arg1)) transposes_S256x256_S256x256_1_0) bitsLt_bf16_f32 := by
    show StableHlo.after hostOps0 (fun b => m (c, b)) (Proc.devRef .tc main_v1) = _
    after_results
  rw [e]
  show transpose S256x256 [1, 0] (m ((c : Thread nD τ).loc main_arg1)) transposes_S256x256_S256x256_1_0 (ix2 n k) = _
  refine transpose_apply [1, 0] _ transposes_S256x256_S256x256_1_0 (ix2 n k) (ix2 k n) (fun b => ?_)
  match b with
  | ⟨0, _⟩ => rfl
  | ⟨1, _⟩ => rfl

/-- The second is the transpose of `S`. -/
theorem sinT_apply (c : Dev nD) (n k : Fin 256) :
    V m c main_v3 (ix2 n k) = m ((c : Thread nD τ).loc main_arg2) (ix2 k n) := by
  have e : (V m c main_v3 : S256x256.Idx → EReal)
      = truncf (F := Ideal) .bf16 (transpose S256x256 [1, 0] (m ((c : Thread nD τ).loc main_arg2)) transposes_S256x256_S256x256_1_0) bitsLt_bf16_f32 := by
    show StableHlo.after hostOps0 (fun b => m (c, b)) (Proc.devRef .tc main_v3) = _
    after_results
  rw [e]
  show transpose S256x256 [1, 0] (m ((c : Thread nD τ).loc main_arg2)) transposes_S256x256_S256x256_1_0 (ix2 n k) = _
  refine transpose_apply [1, 0] _ transposes_S256x256_S256x256_1_0 (ix2 n k) (ix2 k n) (fun b => ?_)
  match b with
  | ⟨0, _⟩ => rfl
  | ⟨1, _⟩ => rfl

/-! ## The index maps, decided over the grid -/

/-- Point `t` reads input block `(t, 0, 0)`, both tables at block `(0, 0)`, and writes result block `(t, 0)`. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## What a point writes back -/

/-- Point `t` writes back block `t` of the transform of the argument arrays. -/
theorem flushed_eq (c : Dev nD) (t : Fin cfg0.N) :
    (dats m 0 c).flushed 3 t = ((cfg0.win 3).blk t).view.read (Elt Ideal)
      (spectrum (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero zero2]
  simp only [View.ld_unit_zero (S := S256x256) zero2]
  obtain ⟨a0, a1, a2, b0, b1, c0, c1, d0, d1⟩ := idx_facts t
  funext y
  show k0_pay1 (F := Ideal) (View.ld (iblk m c 0 t) r0_0) (View.ld (iblk m c 0 t) r0_1) (iblk m c 1 t) (iblk m c 2 t) y
    = spectrum (m ((c : Thread nD τ).loc main_arg0)) (m ((c : Thread nD τ).loc main_arg1)) (m ((c : Thread nD τ).loc main_arg2))
        (((cfg0.win 3).blk t).view.emb y)
  have hy0 : (y 0).val < 2048 := (y 0).isLt
  have hy1 : (y 1).val < 512 := (y 1).isLt
  refine block_spectrum (iblk m c 0 t) (iblk m c 1 t) (iblk m c 2 t) _ _ _ y _ (fun ch n => ?_) (fun n k => ?_) (fun n k => ?_) ?_
  · show V m c main_arg0 (((cfg0.win 0).blk t).view.emb (ix3 (y 0) ch n)) = _
    rw [V_main_arg0]
    refine congrArg (m ((c : Thread nD τ).loc main_arg0)) (funext fun a => Fin.ext ?_)
    match a with
    | ⟨0, _⟩ =>
      show win0_0.index t (0 : Fin 3) * 2048 + 1 * (y 0).val = win0_3.index t (0 : Fin 2) * 2048 + 1 * (y 0).val
      omega
    | ⟨1, _⟩ =>
      show win0_0.index t (1 : Fin 3) * 2 + 1 * ch.val = ch.val
      omega
    | ⟨2, _⟩ =>
      show win0_0.index t (2 : Fin 3) * 256 + 1 * n.val = n.val
      omega
  · show V m c main_v1 (((cfg0.win 1).blk t).view.emb (ix2 n k)) = _
    rw [← cosT_apply m c n k]
    refine congrArg (V m c main_v1) (funext fun a => Fin.ext ?_)
    match a with
    | ⟨0, _⟩ => show win0_1.index t (0 : Fin 2) * 256 + 1 * n.val = n.val; omega
    | ⟨1, _⟩ => show win0_1.index t (1 : Fin 2) * 256 + 1 * k.val = k.val; omega
  · show V m c main_v3 (((cfg0.win 2).blk t).view.emb (ix2 n k)) = _
    rw [← sinT_apply m c n k]
    refine congrArg (V m c main_v3) (funext fun a => Fin.ext ?_)
    match a with
    | ⟨0, _⟩ => show win0_2.index t (0 : Fin 2) * 256 + 1 * n.val = n.val; omega
    | ⟨1, _⟩ => show win0_2.index t (1 : Fin 2) * 256 + 1 * k.val = k.val; omega
  · show win0_3.index t (1 : Fin 2) * 512 + 1 * (y 1).val = (y 1).val
    omega

/-! ## The result array after the region -/

/-- An index of the result array is in point `t`'s block iff each coordinate is in the block's range on its axis. -/
theorem mem_blk (t : Fin cfg0.N) (i : S65536x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v4).slice (win0_3.rect t)).set ↔ _
  rw [View.set_slice_whole, Rect.mem_set_unit]
  exact Iff.rfl

/-- Row `r` of the result is in the block of point `r / 2048`. -/
theorem cover (i : S65536x512.Idx) :
    ∃ t : Fin cfg0.N, (cfg0.win 3).flush t = true ∧ i ∈ ((cfg0.win 3).blk t).view.set := by
  have hi0 : (i 0).val < 65536 := (i 0).isLt
  have hi1 : (i 1).val < 512 := (i 1).isLt
  have ht : (i 0).val / 2048 < cfg0.N := by show (i 0).val / 2048 < 32; omega
  obtain ⟨a0, a1, a2, b0, b1, c0, c1, d0, d1⟩ := idx_facts ⟨(i 0).val / 2048, ht⟩
  refine ⟨⟨(i 0).val / 2048, ht⟩, flush0_3 _, ?_⟩
  rw [mem_blk]
  intro a
  match a with
  | ⟨0, _⟩ =>
    show win0_3.index ⟨(i 0).val / 2048, ht⟩ (0 : Fin 2) * 2048 ≤ (i 0).val ∧ (i 0).val < win0_3.index ⟨(i 0).val / 2048, ht⟩ (0 : Fin 2) * 2048 + 2048
    have e : win0_3.index ⟨(i 0).val / 2048, ht⟩ (0 : Fin 2) = (i 0).val / 2048 := d0
    omega
  | ⟨1, _⟩ =>
    show win0_3.index ⟨(i 0).val / 2048, ht⟩ (1 : Fin 2) * 512 ≤ (i 1).val ∧ (i 1).val < win0_3.index ⟨(i 0).val / 2048, ht⟩ (1 : Fin 2) * 512 + 512
    omega

/-- The result array after the region is the transform of the argument arrays. -/
theorem final (c : Dev nD) : (dats m 0 c).arrAt 3 cfg0.N
    = spectrum (m ((c : Thread nD τ).loc main_arg0)) (m ((c : Thread nD τ).loc main_arg1)) (m ((c : Thread nD τ).loc main_arg2)) :=
  (dats m 0 c).arrAt_eq_of_cover 3 _ (fun t _ => flushed_eq m c t) cover

/-! ## The host line after the region, and the run -/

/-- Adding the trailing unit axis to the transform. -/
theorem addUnit_spectrum (X : SIn.Idx → EReal) (C S : STab.Idx → EReal) :
    broadcastInDim S65536x512x1 ![0, 1] bcast_S65536x512_S65536x512x1_0_1 (spectrum X C S) = spectrum3 X C S := by
  funext i
  refine (broadcastInDim_apply ![0, 1] bcast_S65536x512_S65536x512x1_0_1 (spectrum X C S) i (ix2 (i 0) (i 1)) (fun a => ?_)).trans rfl
  match a with
  | ⟨0, _⟩ => show (i 0).val = if (65536 : Nat) = 1 then 0 else (i 0).val; rw [if_neg (by decide)]
  | ⟨1, _⟩ => show (i 1).val = if (512 : Nat) = 1 then 0 else (i 1).val; rw [if_neg (by decide)]

/-- The program's result buffer after the host line that follows the region. -/
theorem tail_eq (c : Dev nD) :
    Pipeline.afterTail₀ cfgs (dats m) 0 (V0 m) [hostOps1] c main_v5
      = spectrum3 (m ((c : Thread nD τ).loc main_arg0)) (m ((c : Thread nD τ).loc main_arg1)) (m ((c : Thread nD τ).loc main_arg2)) := by
  unfold Pipeline.afterTail₀
  show StableHlo.after hostOps1 _ (Proc.devRef .tc main_v5) = _
  after_results
  have e := (Pipeline.withArrays_arr spec0 launch0.win.arr_inj c (V0 m c) (fun w => (dats m 0 c).arrAt w cfg0.N) 3).trans (final m c)
  refine (congrArg (broadcastInDim S65536x512x1 ![0, 1] bcast_S65536x512_S65536x512x1_0_1) e).trans ?_
  exact addUnit_spectrum _ _ _

/-- Every weakly fair execution of the program terminates with its result at the transform of the argument arrays and
    the arguments unchanged. -/
theorem run : θ_run defs (onTc (τ := τ) (main (F := Ideal))) ⟨m, fun _ => 0, ρ⟩ (fun r => ∀ c : Dev nD,
      r.2.mem ((c.tc : Thread nD τ).loc main_v5)
        = spectrum3 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨((h c).2 main_v5 (Pipeline.mem_restRefs_of main_v5 (by decide) (by decide))).trans (tail_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.ArrayValue

end
-- ==== Proof.lean ====
/-
  The kernel and its reference compute the same transform, over the extended reals.

  Both take `x : [65536, 2, 256]` (a real and an imaginary channel of length 256 per row) and two `256 × 256`
  tables `C`, `S`, and return `[65536, 512, 1]`: for row `b` and frequency `k < 256`
      out[b, k, 0]       = Σ_n x[b,0,n]·C[k,n] − Σ_n x[b,1,n]·S[k,n]
      out[b, 256 + k, 0] = Σ_n x[b,1,n]·C[k,n] + Σ_n x[b,0,n]·S[k,n]
  (Proof/Spectrum.lean states this function once). The reference contracts each channel with each table on their
  last axes and joins the difference and the sum along the column axis (Proof/ReferenceSpectrum.lean). The kernel
  transposes the tables on the host, walks the rows in 32 blocks of 2048, multiplies each block's channels by the
  transposed tables into zero accumulators, and writes the joined difference and sum back as the block's 2048 rows
  (Proof/KernelBlock.lean: one block at an index; Proof/KernelArray.lean: the blocks tile the result, and the host
  line after the region adds the unit axis). The two sides are the same sums of the same products in the same order of
  factors, so no law of arithmetic beyond the definitions is needed and the precondition is never opened; changing
  a float's format is the identity on extended reals, which is why the kernel's narrowing of its operands does not
  show. The idealization rewrote nothing, so its sanction is trivial.
-/
import proofs.«175483_j31258771980926_1_alg».proof.Defs
import proofs.«175483_j31258771980926_1_alg».proof.Proof.Gen.Kernel
import proofs.«175483_j31258771980926_1_alg».proof.Proof.Gen.Kernel.Skeleton
import proofs.«175483_j31258771980926_1_alg».proof.Proof.Gen.Kernel.Launch
import proofs.«175483_j31258771980926_1_alg».proof.Proof.Gen.Kernel.Points
import proofs.«175483_j31258771980926_1_alg».proof.Proof.Gen.Kernel.Frame
import proofs.«175483_j31258771980926_1_alg».proof.Proof.Gen.KernelIdeal
import proofs.«175483_j31258771980926_1_alg».proof.Proof.Gen.KernelIdeal.Skeleton
import proofs.«175483_j31258771980926_1_alg».proof.Proof.Gen.KernelIdeal.Launch
import proofs.«175483_j31258771980926_1_alg».proof.Proof.Gen.KernelIdeal.Points
import proofs.«175483_j31258771980926_1_alg».proof.Proof.Gen.KernelIdeal.Frame
import proofs.«175483_j31258771980926_1_alg».proof.Proof.Gen.ReferenceIdeal
import proofs.«175483_j31258771980926_1_alg».proof.Proof.Gen.Pre_finite_inputs
import proofs.«175483_j31258771980926_1_alg».proof.Proof.Gen.ReferenceIdeal.Run
import proofs.«175483_j31258771980926_1_alg».proof.Proof.Gen.ReferenceIdeal.Read
import proofs.«175483_j31258771980926_1_alg».proof.Proof.Spectrum
import proofs.«175483_j31258771980926_1_alg».proof.Proof.ReferenceSpectrum
import proofs.«175483_j31258771980926_1_alg».proof.Proof.KernelBlock
import proofs.«175483_j31258771980926_1_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments, both programs end with the transform of those arguments. -/
theorem algebraic : Cert.algebraic_KernelIdeal_ReferenceIdeal := by
  intro m ρ m' ρ' _ hagree
  refine ⟨fun c => Cert.Dft.spectrum3 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v11_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
